-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S10000x1 : Shape := ⟨2, ![10000, 1]⟩
abbrev S1x2048 : Shape := ⟨2, ![1, 2048]⟩
abbrev S10000 : Shape := ⟨1, ![10000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S1x2048 : S_.BroadcastsInDim S1x2048 (![] : Fin 0 → Fin S1x2048.rank)
  reducesTo_S1x2048_S_d0_1 : S1x2048.ReducesTo [0, 1] S_
  bcast_S_S10000 : S_.BroadcastsInDim S10000 (![] : Fin 0 → Fin S10000.rank)
  reducesTo_S10000_S_d0 : S10000.ReducesTo [0] S_

variable [Facts]

def fn_part1 {F : FTy → Type} [FloatOps F] (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  main_v18

def fn {F : FTy → Type} [FloatOps F] (main_arg0 : FVec F S8192x2048 .f32) (main_arg1 : FVec F S10000x1 .f32) (main_arg2 : FVec F S1x2048 .f32) (main_arg3 : FVec F S10000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S10000x1 .f32 := Host.absf main_arg1
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_v13 main_v16
-- ==== Kernel.lean ====
abbrev S8192x2048 : Shape := ⟨2, ![8192, 2048]⟩
abbrev S10000x1 : Shape := ⟨2, ![10000, 1]⟩
abbrev S1x2048 : Shape := ⟨2, ![1, 2048]⟩
abbrev S10000 : Shape := ⟨1, ![10000]⟩
abbrev S1x10000 : Shape := ⟨2, ![1, 10000]⟩
abbrev S_ : Shape := ⟨0, ![]⟩
abbrev S1x10240 : Shape := ⟨2, ![1, 10240]⟩
abbrev S8192x10240 : Shape := ⟨2, ![8192, 10240]⟩
abbrev S128x2048 : Shape := ⟨2, ![128, 2048]⟩
abbrev S128x10240 : Shape := ⟨2, ![128, 10240]⟩
abbrev S128 : Shape := ⟨1, ![128]⟩
abbrev S128x1 : Shape := ⟨2, ![128, 1]⟩
abbrev S8192x10000 : Shape := ⟨2, ![8192, 10000]⟩

abbrev nBuf : Space → Nat
  | .hbm => 15
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S10000x1, .f32⟩
  | .hbm, ⟨2, _⟩ => ⟨S1x2048, .f32⟩
  | .hbm, ⟨3, _⟩ => ⟨S10000, .f32⟩
  | .hbm, ⟨4, _⟩ => ⟨S10000, .f32⟩
  | .hbm, ⟨5, _⟩ => ⟨S1x10000, .f32⟩
  | .hbm, ⟨6, _⟩ => ⟨S_, .i32⟩
  | .hbm, ⟨7, _⟩ => ⟨S_, .f32⟩
  | .hbm, ⟨8, _⟩ => ⟨S1x10240, .f32⟩
  | .hbm, ⟨9, _⟩ => ⟨S1x10000, .f32⟩
  | .hbm, ⟨10, _⟩ => ⟨S_, .i32⟩
  | .hbm, ⟨11, _⟩ => ⟨S_, .f32⟩
  | .hbm, ⟨12, _⟩ => ⟨S1x10240, .f32⟩
  | .hbm, ⟨13, _⟩ => ⟨S8192x10240, .f32⟩
  | .hbm, ⟨14, _⟩ => ⟨S8192x10000, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x10240, .f32⟩
  | .local _ .vmem, ⟨4, _⟩ => ⟨S1x10240, .f32⟩
  | .local _ .vmem, ⟨5, _⟩ => ⟨S128x10240, .f32⟩
  | .local _ .vmem, ⟨6, _⟩ => ⟨S128x10240, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x10240 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S10000x1_S10000 : S10000x1.ShapeCasts S10000
  shapeCasts_S10000_S1x10000 : S10000.ShapeCasts S1x10000
  pads_S1x10000_S1x10240_000_02400 : S1x10000.Pads (![0, 0] : Fin 2 → Nat) ![0, 240] ![0, 0] S1x10240
  h_S_ : 0 < S_.numel
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  broadcasts_S1x2048_S128x2048 : S1x2048.Broadcasts S128x2048
  reduces_S128x2048_S128 : S128x2048.Reduces [1] S128
  shapeCasts_S128_S128x1 : S128.ShapeCasts S128x1
  inb_S1x10240_S1x10240_0_0 : ∀ a, (![0, 0] : Fin 2 → Nat) a + S1x10240.size a ≤ S1x10240.size a
  h_S1x10240 : 0 < S1x10240.numel
  shapeCasts_S1x10240_S1x10240 : S1x10240.ShapeCasts S1x10240
  broadcasts_S128x1_S128x10240 : S128x1.Broadcasts S128x10240
  broadcasts_S1x10240_S128x10240 : S1x10240.Broadcasts S128x10240
  inb_S128x10240_S128x10240_0_0 : ∀ a, (![0, 0] : Fin 2 → Nat) a + S128x10240.size a ≤ S128x10240.size a
  h_S128x10240 : 0 < S128x10240.numel
  slices_S8192x10240_S8192x10000_0_0 : S8192x10240.Slices ![0, 0] S8192x10000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10240.size a ≤ S1x10240.size a
  hwx0_2 : ∀ i : grid0.Coords, EltTy.bits .f32 = 32 ∨ (Rect.block (s := S1x10240) S1x10240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10240.size a ≤ S1x10240.size a
  hwx0_3 : ∀ i : grid0.Coords, EltTy.bits .f32 = 32 ∨ (Rect.block (s := S1x10240) S1x10240.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x10240.size a ≤ S8192x10240.size a
  hwx0_4 : ∀ i : grid0.Coords, EltTy.bits .f32 = 32 ∨ (Rect.block (s := S8192x10240) S128x10240.size (cc0_transform_4 i) (hinb0_4 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x10240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x10240.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x10240.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S10000x1 : Shape := ⟨2, ![10000, 1]⟩
abbrev S1x2048 : Shape := ⟨2, ![1, 2048]⟩
abbrev S10000 : Shape := ⟨1, ![10000]⟩
abbrev S2048x1 : Shape := ⟨2, ![2048, 1]⟩
abbrev S8192x1 : Shape := ⟨2, ![8192, 1]⟩
abbrev S1x10000 : Shape := ⟨2, ![1, 10000]⟩
abbrev S8192x10000 : Shape := ⟨2, ![8192, 10000]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S10000x1, .f32⟩
  | .hbm, ⟨2, _⟩ => ⟨S1x2048, .f32⟩
  | .hbm, ⟨3, _⟩ => ⟨S10000, .f32⟩
  | .hbm, ⟨4, _⟩ => ⟨S2048x1, .f32⟩
  | .hbm, ⟨5, _⟩ => ⟨S8192x1, .f32⟩
  | .hbm, ⟨6, _⟩ => ⟨S10000, .f32⟩
  | .hbm, ⟨7, _⟩ => ⟨S1x10000, .f32⟩
  | .hbm, ⟨8, _⟩ => ⟨S8192x10000, .f32⟩
  | .hbm, ⟨9, _⟩ => ⟨S8192x10000, .f32⟩
  | .hbm, ⟨10, _⟩ => ⟨S8192x10000, .f32⟩
  | .hbm, ⟨11, _⟩ => ⟨S1x10000, .f32⟩
  | .hbm, ⟨12, _⟩ => ⟨S8192x10000, .f32⟩
  | .hbm, ⟨13, _⟩ => ⟨S8192x10000, .f32⟩
  | .hbm, ⟨14, _⟩ => ⟨S_, .f32⟩
  | .hbm, ⟨15, _⟩ => ⟨S8192x10000, .f32⟩
  | .hbm, ⟨16, _⟩ => ⟨S8192x10000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S1x2048_S2048x1_1_0 : S1x2048.Transposes [1, 0] S2048x1
  shapeCasts_S10000x1_S10000 : S10000x1.ShapeCasts S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  dot_S8192x2048_S2048x1_S8192x1_1_0_0_1_n_n_wf : DotDims.WF S8192x2048 S2048x1 S8192x1 [1] [0] [0] [1] [] []

variable [Facts₀]

def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf

class Facts : Prop extends Facts₀ where

variable [Facts]
-- ==== Proof.Affine.lean ====
/-
  The function both programs compute. With `s r = ∑ k, x[r,k] · B[0,k]` the inner product of row `r` of `x` with the one
  row of `B`, the result at `(r, j)` is `max (s r · A[j,0] + bias[j]) 0`: a rank-one update of the bias, then the positive
  part. The kernel works on class rows zero-padded from 10000 to 10240 columns; `Gp` is the same function over such rows
  (any two rows `a`, `b` of that width), and restricted to the first 10000 columns, with `a` and `b` reading `A` and
  `bias` there, it is `G`.
-/
import Idealize.ShloMosaic.PureOps.Ideal
import Idealize.ShloMosaic.Lib.ValueIdx

noncomputable section

open scoped BigOperators

namespace Cert.Affine

open Idealize.ShloMosaic Idealize.ShloMosaic.ValueIdx

/-- The inner product of row `r` of `x` with the single row of `B`, over the 2048 features. -/
def rowDot (x : (⟨⟨2, ![8192, 2048]⟩, .f32⟩ : BufTy).Contents (Elt Ideal)) (B : (⟨⟨2, ![1, 2048]⟩, .f32⟩ : BufTy).Contents (Elt Ideal))
    (r : Fin 8192) : EReal :=
  ∑ k : Fin 2048, x (ix2 r k) * B (ix2 (0 : Fin 1) k)

/-- The result: at `(r, j)`, the positive part of `rowDot r · A[j,0] + bias[j]`. -/
def G (x : (⟨⟨2, ![8192, 2048]⟩, .f32⟩ : BufTy).Contents (Elt Ideal)) (A : (⟨⟨2, ![10000, 1]⟩, .f32⟩ : BufTy).Contents (Elt Ideal))
    (B : (⟨⟨2, ![1, 2048]⟩, .f32⟩ : BufTy).Contents (Elt Ideal)) (bias : (⟨⟨1, ![10000]⟩, .f32⟩ : BufTy).Contents (Elt Ideal)) :
    (⟨⟨2, ![8192, 10000]⟩, .f32⟩ : BufTy).Contents (Elt Ideal) :=
  fun i => max (rowDot x B (i 0) * A (ix2 (i 1) (0 : Fin 1)) + bias (ix1 (i 1))) (Ideal.ofBits .f32 0x00000000#32)

/-- The same over class rows of width 10240: at `(r, q)`, the positive part of `rowDot r · a[0,q] + b[0,q]`. -/
def Gp (x : (⟨⟨2, ![8192, 2048]⟩, .f32⟩ : BufTy).Contents (Elt Ideal)) (B : (⟨⟨2, ![1, 2048]⟩, .f32⟩ : BufTy).Contents (Elt Ideal))
    (a b : (⟨⟨2, ![1, 10240]⟩, .f32⟩ : BufTy).Contents (Elt Ideal)) :
    (⟨⟨2, ![8192, 10240]⟩, .f32⟩ : BufTy).Contents (Elt Ideal) :=
  fun i => max (rowDot x B (i 0) * a (ix2 (0 : Fin 1) (i 1)) + b (ix2 (0 : Fin 1) (i 1))) (Ideal.ofBits .f32 0x00000000#32)

/-- Where the padded rows read `A` and `bias` on the first 10000 columns, `Gp` there is `G`. -/
theorem Gp_eq_G (x : (⟨⟨2, ![8192, 2048]⟩, .f32⟩ : BufTy).Contents (Elt Ideal)) (A : (⟨⟨2, ![10000, 1]⟩, .f32⟩ : BufTy).Contents (Elt Ideal))
    (B : (⟨⟨2, ![1, 2048]⟩, .f32⟩ : BufTy).Contents (Elt Ideal)) (bias : (⟨⟨1, ![10000]⟩, .f32⟩ : BufTy).Contents (Elt Ideal))
    (a b : (⟨⟨2, ![1, 10240]⟩, .f32⟩ : BufTy).Contents (Elt Ideal)) (r : Fin 8192) (j : Fin 10000) (q : Fin 10240)
    (ha : a (ix2 (0 : Fin 1) q) = A (ix2 j (0 : Fin 1))) (hb : b (ix2 (0 : Fin 1) q) = bias (ix1 j)) :
    Gp x B a b (ix2 r q) = G x A B bias (ix2 r j) := by
  show max (rowDot x B r * a (ix2 (0 : Fin 1) q) + b (ix2 (0 : Fin 1) q)) _ = max (rowDot x B r * A (ix2 j (0 : Fin 1)) + bias (ix1 j)) _
  rw [ha, hb]

end Cert.Affine

end
-- ==== Proof.RefValue.lean ====
/-
  The reference computes `G`. Read one stage at a time, its result at `(r, j)` is the maximum with zero of
  (the contraction of row `r` of `x` with the transposed `B`) times (`A` reshaped to a vector and laid along the
  columns) plus (`bias` laid along the columns). The contraction over the one shared axis is `∑ k, x[r,k] · Bᵀ[k,0]`, and
  `Bᵀ[k,0] = B[0,k]`; every broadcast reads its operand at the coordinate it keeps. So the stages compose to `G`, the
  indices agreeing coordinate by coordinate.
-/
import proofs.«165618_j36747740184729_1_alg».proof.Proof.Gen.ReferenceIdeal.Read
import proofs.«165618_j36747740184729_1_alg».proof.Proof.Affine

noncomputable section

open scoped BigOperators

namespace Cert.ReferenceIdeal.RefValue

open Cert.ReferenceIdeal Cert.ReferenceIdeal.Gen Cert.ReferenceIdeal.Read Idealize.ShloMosaic Idealize.ShloMosaic.ValueIdx Cert.Affine

/-- The last stage of the reference, as a function of the four arguments, is `G`. -/
theorem result_eq (x0 : (⟨S8192x2048, .f32⟩ : BufTy).Contents (Elt Ideal)) (x1 : (⟨S10000x1, .f32⟩ : BufTy).Contents (Elt Ideal))
    (x2 : (⟨S1x2048, .f32⟩ : BufTy).Contents (Elt Ideal)) (x3 : (⟨S10000, .f32⟩ : BufTy).Contents (Elt Ideal)) :
    val_main_v10 (F := Ideal) x0 x1 x2 x3 = G x0 x1 x2 x3 := by
  funext i
  obtain ⟨r, j, rfl⟩ : ∃ (r : Fin 8192) (j : Fin 10000), i = ix2 r j := ⟨i 0, i 1, eq_ix2 i⟩
  rw [val_main_v10_apply, val_main_v9_apply, val_main_v6_apply, val_main_v4_apply, val_main_v1_apply, val_main_v5_apply,
    val_main_v3_apply, val_main_v2_apply, val_main_v8_apply, val_main_v7_apply, val_main_call0_v0_apply,
    val_main_call0_cst_apply]
  simp only [val_main_v0_apply]
  -- the row of `x` and the column of `Bᵀ` the contraction reads at `k`
  have hl : ∀ k : Fin 2048, lidx_main_v1 (idx_main_v4 (ix2 r j)) k = ix2 r k := fun k =>
    funext fun a => match a with | ⟨0, _⟩ => rfl | ⟨1, _⟩ => rfl
  have hr : ∀ k : Fin 2048, idx_main_v0 (ridx_main_v1 (idx_main_v4 (ix2 r j)) k) = ix2 (0 : Fin 1) k := fun k =>
    funext fun a => match a with | ⟨0, _⟩ => rfl | ⟨1, _⟩ => rfl
  -- the entry of `A` and of `bias` column `j` reads
  have hA : idx_main_v2 (idx_main_v3 (idx_main_v5 (ix2 r j))) = ix2 j (0 : Fin 1) :=
    funext fun a => match a with | ⟨0, _⟩ => Fin.ext (Nat.div_one _) | ⟨1, _⟩ => rfl
  have hb : idx_main_v7 (idx_main_v8 (ix2 r j)) = ix1 j :=
    funext fun a => match a with | ⟨0, _⟩ => rfl
  simp only [hl, hr, hA, hb]
  rfl

end Cert.ReferenceIdeal.RefValue

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Payload.lean ====
/-
  What the kernel body stores, at one entry of its 128 × 10240 tile. From a tile `v0` of `x` (128 rows), the row `v1` of
  `B` and the two class rows `v6`, `v8`, the body forms `v0 · v1` with `v1` laid along the rows, sums each row over its 2048
  lanes, keeps that sum as a column, lays the column along the 10240 class columns and the class rows along the 128 rows,
  and stores the maximum with zero of column · `v6` + `v8`. At `(p, q)` this is
  `max ((∑ k, v0[p,k] · v1[0,k]) · v6[0,q] + v8[0,q]) 0`: a lane sum is the sum over the lane coordinate, and each
  broadcast or unit-axis cast reads its operand at the coordinate it keeps.
-/
import proofs.«165618_j36747740184729_1_alg».proof.Proof.Gen.KernelIdeal.Skeleton
import proofs.«165618_j36747740184729_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LibKeepdims

/-- The source index of a lane sum over axis 1 of a 128 × 2048 tile: row `p`, lane `k`. -/
theorem lift_row (p : Fin 128) (k : Fin 2048) :
    Shape.Reduces.lift (reduces_S128x2048_S128 : S128x2048.Reduces [1] S128) (ix1 p) k = ix2 p k :=
  funext fun a => match a with | ⟨0, _⟩ => Fin.ext rfl | ⟨1, _⟩ => Fin.ext rfl

/-- A lane sum of a 128 × 2048 tile from the zero word, at row `p`: the sum of that row's 2048 entries. -/
theorem row_sum (src : FVec Ideal S128x2048 .f32) (hφ : FKind.Formats .f32) (hacc : (0x00000000#32 : BitVec 32) = 0x00000000#32)
    (p : Fin 128) :
    multiReduction .add [1] S128 src 0x00000000#32 reduces_S128x2048_S128 hφ hacc (ix1 p) = ∑ k : Fin 2048, src (ix2 p k) :=
  (Ideal.multiReduction_add_single src 0x00000000#32 reduces_S128x2048_S128 hφ hacc (ix1 p)).trans
    (Finset.sum_congr rfl fun k _ => congrArg src (lift_row p k))

/-- The stored tile at `(p, q)`. -/
theorem pay_apply (v0 : Vec Ideal S128x2048 .f32) (v1 : Vec Ideal S1x2048 .f32) (v6 v8 : Vec Ideal S1x10240 .f32)
    (p : Fin 128) (q : Fin 10240) :
    k0_pay1 (F := Ideal) v0 v1 v6 v8 (ix2 p q)
      = max ((∑ k : Fin 2048, v0 (ix2 p k) * v1 (ix2 (0 : Fin 1) k)) * v6 (ix2 (0 : Fin 1) q) + v8 (ix2 (0 : Fin 1) q))
          (Ideal.ofBits .f32 0x00000000#32) := by
  unfold k0_pay1
  rw [maximumf_apply, addf_apply, mulf_apply, broadcast_apply]
  rw [broadcastTo_a1_ab_apply, shapeCast_a_a1_apply, row_sum]
  rw [broadcastTo_1b_ab_apply, broadcastTo_1b_ab_apply, shapeCast_self, shapeCast_self]
  simp only [mulf_apply, broadcastTo_1b_ab_apply]
  rfl

/-- The same at any index of the tile, read through its two coordinates. -/
theorem pay_at (v0 : Vec Ideal S128x2048 .f32) (v1 : Vec Ideal S1x2048 .f32) (v6 v8 : Vec Ideal S1x10240 .f32)
    (j : S128x10240.Idx) :
    k0_pay1 (F := Ideal) v0 v1 v6 v8 j
      = max ((∑ k : Fin 2048, v0 (ix2 (j 0) k) * v1 (ix2 (0 : Fin 1) k)) * v6 (ix2 (0 : Fin 1) (j 1)) + v8 (ix2 (0 : Fin 1) (j 1)))
          (Ideal.ofBits .f32 0x00000000#32) := by
  obtain ⟨p, q, rfl⟩ : ∃ (p : Fin 128) (q : Fin 10240), j = ix2 p q := ⟨j 0, j 1, eq_ix2 j⟩
  exact pay_apply v0 v1 v6 v8 p q

end Cert.KernelIdeal.Payload

end
-- ==== Proof.KernelValue.lean ====
/-
  The kernel's result array. The grid has 64 points; point `t` reads rows `128 t … 128 t + 127` of `x`, the whole row of
  `B` and the two whole class rows (width 10240), and writes rows `128 t … 128 t + 127` of the 8192 × 10240 output. What it
  writes is the stored tile of `Payload`, which at `(p, q)` of the tile is `Gp` of the arrays at `(128 t + p, q)`; the 64
  row bands cover the output, so the output array ends holding `Gp`. The class rows are `A` (as a vector, as a row) and
  `bias` (as a row), each padded with 240 zeros on the right, so on the first 10000 columns they read `A[j,0]` and
  `bias[j]`. The program's last line keeps the first 10000 columns, where `Gp` is `G`.
-/
import proofs.«165618_j36747740184729_1_alg».proof.Proof.Gen.KernelIdeal.Frame
import proofs.«165618_j36747740184729_1_alg».proof.Proof.Payload
import proofs.«165618_j36747740184729_1_alg».proof.Proof.Affine
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic
import Idealize.ShloMosaic.PureOps.Ideal

set_option maxRecDepth 16384

noncomputable section

open scoped BigOperators

namespace Cert.KernelIdeal.KValue

open Cert.KernelIdeal Cert.KernelIdeal.Gen Cert.KernelIdeal.Payload Idealize.ShloMosaic Idealize.ShloMosaic.TcCoe Idealize.SL.Sem
open Idealize.ShloMosaic.StableHlo Idealize.ShloMosaic.ValueIdx Cert.Affine
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at each grid point: the tile of `x` and the output band move with the point along the
    rows; the row of `B` and the two class rows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 64 :=
  Nat.lt_of_lt_of_eq t.isLt (show cfg0.N = 64 from N_0)

/-! ## Each window's block, read at an index -/

/-- The four input blocks at point `t`, each at its literal shape: a 128 × 2048 tile of `x`, the row of `B`, and the two
    class rows. -/
abbrev xblk (c : Dev nD) (t : Fin cfg0.N) : Vec Ideal S128x2048 .f32 := iblk m c 0 t
abbrev bblk (c : Dev nD) (t : Fin cfg0.N) : Vec Ideal S1x2048 .f32 := iblk m c 1 t
abbrev ablk (c : Dev nD) (t : Fin cfg0.N) : Vec Ideal S1x10240 .f32 := iblk m c 2 t
abbrev cblk (c : Dev nD) (t : Fin cfg0.N) : Vec Ideal S1x10240 .f32 := iblk m c 3 t

/-- The tile of `x` at point `t`: entry `y` is `x` at row `128 t + y₀`, column `y₁`. -/
theorem xblk_apply (c : Dev nD) (t : Fin cfg0.N) (y : S128x2048.Idx) (i : S8192x2048.Idx)
    (h0 : (i 0).val = 128 * t.val + (y 0).val) (h1 : (i 1).val = (y 1).val) :
    xblk m c t y = (V m c main_arg0 : S8192x2048.Idx → Elt Ideal .f32) i := by
  obtain ⟨e0, e1, -⟩ := idx_facts t
  unfold xblk iblk
  rw [View.read_apply]
  show V m c main_arg0 _ = V m c main_arg0 _
  congr 1
  funext a
  apply Fin.ext
  match a with
  | ⟨0, _⟩ => show win0_0.index t (0 : Fin 2) * 128 + 1 * (y 0).val = (i 0).val; rw [e0, h0]; omega
  | ⟨1, _⟩ => show win0_0.index t (1 : Fin 2) * 2048 + 1 * (y 1).val = (i 1).val; rw [e1, h1]; omega

/-- The block of `B` at any point is `B`. -/
theorem bblk_apply (c : Dev nD) (t : Fin cfg0.N) (y : S1x2048.Idx) :
    bblk m c t y = (V m c main_arg2 : S1x2048.Idx → Elt Ideal .f32) y := by
  obtain ⟨-, -, e2, e3, -⟩ := idx_facts t
  unfold bblk iblk
  rw [View.read_apply]
  show V m c main_arg2 _ = V m c main_arg2 _
  congr 1
  funext a
  apply Fin.ext
  match a with
  | ⟨0, _⟩ => show win0_1.index t (0 : Fin 2) * 1 + 1 * (y 0).val = (y 0).val; rw [e2]; omega
  | ⟨1, _⟩ => show win0_1.index t (1 : Fin 2) * 2048 + 1 * (y 1).val = (y 1).val; rw [e3]; omega

/-- The block of the first class row at any point is that row. -/
theorem ablk_apply (c : Dev nD) (t : Fin cfg0.N) (y : S1x10240.Idx) :
    ablk m c t y = (V m c main_v2 : S1x10240.Idx → Elt Ideal .f32) y := by
  obtain ⟨-, -, -, -, e4, e5, -⟩ := idx_facts t
  unfold ablk iblk
  rw [View.read_apply]
  show V m c main_v2 _ = V m c main_v2 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 10240 + 1 * (y 1).val = (y 1).val; rw [e5]; omega

/-- The block of the second class row at any point is that row. -/
theorem cblk_apply (c : Dev nD) (t : Fin cfg0.N) (y : S1x10240.Idx) :
    cblk m c t y = (V m c main_v4 : S1x10240.Idx → Elt Ideal .f32) y := by
  obtain ⟨-, -, -, -, -, -, e6, e7, -⟩ := idx_facts t
  unfold cblk iblk
  rw [View.read_apply]
  show V m c main_v4 _ = V m c main_v4 _
  congr 1
  funext a
  apply Fin.ext
  match a with
  | ⟨0, _⟩ => show win0_3.index t (0 : Fin 2) * 1 + 1 * (y 0).val = (y 0).val; rw [e6]; omega
  | ⟨1, _⟩ => show win0_3.index t (1 : Fin 2) * 10240 + 1 * (y 1).val = (y 1).val; rw [e7]; omega

/-! ## What a point writes back, and the array after the run -/

/-- The padded-width result over the arrays as the region finds them. -/
abbrev Gv (c : Dev nD) : S8192x10240.Idx → Elt Ideal .f32 :=
  Gp (V m c main_arg0) (V m c main_arg2) (V m c main_v2) (V m c main_v4)

/-- Point `t` writes back band `t` of `Gv`. -/
theorem flushed_eq (c : Dev nD) (t : Fin cfg0.N) :
    (dats m 0 c).flushed 4 t = ((cfg0.win 4).blk t).view.read (Elt Ideal) (Gv m c) := by
  show (cfg0.win 4).cut (grid0.coords t) ((dats m 0 c).after 4 t) = _
  rw [after0_4]
  unfold out0_4
  rw [View.canon_unit_zero hz]
  simp only [View.ld_unit_zero (S := S128x2048) hz, View.ld_unit_zero (S := S1x2048) hz, View.ld_unit_zero (S := S1x10240) hz]
  obtain ⟨-, -, -, -, -, -, -, -, e8, e9⟩ := idx_facts t
  have ht := t_lt t
  funext j
  show k0_pay1 (F := Ideal) (xblk m c t) (bblk m c t) (ablk m c t) (cblk m c t) j
    = Gv m c (((cfg0.win 4).blk t).view.emb j)
  refine (pay_at (xblk m c t) (bblk m c t) (ablk m c t) (cblk m c t) j).trans ?_
  have hj0 : (j 0).val < 128 := (j 0).isLt
  have hj1 : (j 1).val < 10240 := (j 1).isLt
  obtain ⟨r, hr⟩ : ∃ r : Fin 8192, r.val = 128 * t.val + (j 0).val := ⟨⟨128 * t.val + (j 0).val, by omega⟩, rfl⟩
  obtain ⟨q, hq⟩ : ∃ q : Fin 10240, q.val = (j 1).val := ⟨⟨(j 1).val, hj1⟩, rfl⟩
  have hemb : ((cfg0.win 4).blk t).view.emb j = ix2 r q := by
    funext a
    apply Fin.ext
    match a with
    | ⟨0, _⟩ => show win0_4.index t (0 : Fin 2) * 128 + 1 * (j 0).val = r.val; rw [e8, hr]; omega
    | ⟨1, _⟩ => show win0_4.index t (1 : Fin 2) * 10240 + 1 * (j 1).val = q.val; rw [e9, hq]; omega
  rw [hemb]
  show _ = max (rowDot (V m c main_arg0) (V m c main_arg2) r * (V m c main_v2) (ix2 (0 : Fin 1) q) + (V m c main_v4) (ix2 (0 : Fin 1) q)) _
  have hsum : (∑ k : Fin 2048, xblk m c t (ix2 (j 0) k) * bblk m c t (ix2 (0 : Fin 1) k))
      = rowDot (V m c main_arg0) (V m c main_arg2) r :=
    Finset.sum_congr rfl fun k _ => by
      rw [xblk_apply m c t (ix2 (j 0) k) (ix2 r k) hr rfl, bblk_apply m c t (ix2 (0 : Fin 1) k)]
  have hqj : (ix2 (0 : Fin 1) (j 1) : S1x10240.Idx) = ix2 (0 : Fin 1) q :=
    funext fun a => match a with | ⟨0, _⟩ => rfl | ⟨1, _⟩ => Fin.ext hq.symm
  rw [hsum, ablk_apply m c t, cblk_apply m c t, hqj]

/-- An index of the output is in point `t`'s band iff each coordinate is in the band's range on its axis. -/
theorem mem_blk (t : Fin cfg0.N) (i : S8192x10240.Idx) :
    i ∈ ((cfg0.win 4).blk t).view.set ↔ ∀ a : Fin 2, win0_4.index t a * S128x10240.size a ≤ (i a).val ∧ (i a).val < win0_4.index t a * S128x10240.size a + S128x10240.size a := by
  show i ∈ ((View.whole main_v5).slice (win0_4.rect t)).set ↔ _
  rw [View.set_slice_whole, Rect.mem_set_unit]
  exact Iff.rfl

/-- Every index of the output is in the band of the point its row falls in. -/
theorem cover (i : S8192x10240.Idx) : ∃ t : Fin cfg0.N, (cfg0.win 4).flush t = true ∧ i ∈ ((cfg0.win 4).blk t).view.set := by
  have hi0 : (i 0).val < 8192 := (i 0).isLt
  have hi1 : (i 1).val < 10240 := (i 1).isLt
  let t : Fin cfg0.N := ⟨(i 0).val / 128, Nat.lt_of_lt_of_eq (by omega : (i 0).val / 128 < 64) (show (64 : ℕ) = cfg0.N from N_0.symm)⟩
  have htv : t.val = (i 0).val / 128 := rfl
  obtain ⟨-, -, -, -, -, -, -, -, e8, e9⟩ := idx_facts t
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; rw [e8, htv]; omega
  | ⟨1, _⟩ => show win0_4.index t (1 : Fin 2) * 10240 ≤ (i 1).val ∧ (i 1).val < win0_4.index t (1 : Fin 2) * 10240 + 10240; rw [e9]; omega

/-- The output array after the run is `Gv`. -/
theorem final_out (c : Dev nD) : (dats m 0 c).arrAt 4 cfg0.N = Gv m c :=
  (dats m 0 c).arrAt_eq_of_cover 4 (Gv m c) (fun t _ => flushed_eq m c t) cover

/-! ## The two class rows -/

/-- The first class row: `A` as a vector, as a row, padded on the right with the converted integer zero. -/
theorem arow_eq (c : Dev nD) : (V m c main_v2 : S1x10240.Idx → Elt Ideal .f32)
    = pad S1x10240 ![0, 0] ![0, 240] ![0, 0]
        (shapeCast S1x10000 (shapeCast S10000 (m ((c : Thread nD τ).loc main_arg1)) shapeCasts_S10000x1_S10000) shapeCasts_S10000_S1x10000)
        (sitofp (F := Ideal) .f32 (constantI S_ 32 0#32)) pads_S1x10000_S1x10240_000_02400 h_S_ := by
  dsimp only [V, V0]
  simp only [hostOps0, hostOps0_1, hostOps0_2, hostOps0_3, List.flatten_cons, List.flatten_nil, List.append_nil, List.cons_append, List.nil_append]
  after_results
  rfl

/-- The second class row: `bias` as a row, padded the same way. -/
theorem crow_eq (c : Dev nD) : (V m c main_v4 : S1x10240.Idx → Elt Ideal .f32)
    = pad S1x10240 ![0, 0] ![0, 240] ![0, 0]
        (shapeCast S1x10000 (m ((c : Thread nD τ).loc main_arg3)) shapeCasts_S10000_S1x10000)
        (sitofp (F := Ideal) .f32 (constantI S_ 32 0#32)) pads_S1x10000_S1x10240_000_02400 h_S_ := by
  dsimp only [V, V0]
  simp only [hostOps0, hostOps0_1, hostOps0_2, hostOps0_3, List.flatten_cons, List.flatten_nil, List.append_nil, List.cons_append, List.nil_append]
  after_results
  rfl

/-- On its first 10000 columns the first class row reads `A[j, 0]`. -/
theorem arow_apply (c : Dev nD) (j : Fin 10000) (q : Fin 10240) (hq : q.val = j.val) :
    (V m c main_v2 : S1x10240.Idx → Elt Ideal .f32) (ix2 (0 : Fin 1) q)
      = (m ((c : Thread nD τ).loc main_arg1) : S10000x1.Idx → Elt Ideal .f32) (ix2 j (0 : Fin 1)) := by
  rw [arow_eq]
  refine (pad_apply_of_inside _ _ _ _ _ pads_S1x10000_S1x10240_000_02400 h_S_ (ix2 (0 : Fin 1) q) (ix2 (0 : Fin 1) j) (fun a => ?_)).trans ?_
  · match a with
    | ⟨0, _⟩ => rfl
    | ⟨1, _⟩ => show q.val = 0 + j.val * (0 + 1); omega
  · rw [shapeCast_a_1a_apply]
    exact shapeCast_apply _ shapeCasts_S10000x1_S10000 (ix1 j) (ix2 j (0 : Fin 1)) (by
      rw [Shape.rowMajor_val_two, Shape.rowMajor_val_one]
      show j.val * 1 + 0 = j.val
      omega)

/-- On its first 10000 columns the second class row reads `bias[j]`. -/
theorem crow_apply (c : Dev nD) (j : Fin 10000) (q : Fin 10240) (hq : q.val = j.val) :
    (V m c main_v4 : S1x10240.Idx → Elt Ideal .f32) (ix2 (0 : Fin 1) q)
      = (m ((c : Thread nD τ).loc main_arg3) : S10000.Idx → Elt Ideal .f32) (ix1 j) := by
  rw [crow_eq]
  refine (pad_apply_of_inside _ _ _ _ _ pads_S1x10000_S1x10240_000_02400 h_S_ (ix2 (0 : Fin 1) q) (ix2 (0 : Fin 1) j) (fun a => ?_)).trans ?_
  · match a with
    | ⟨0, _⟩ => rfl
    | ⟨1, _⟩ => show q.val = 0 + j.val * (0 + 1); omega
  · exact shapeCast_a_1a_apply _ _ _ _

/-! ## The last line and the run -/

/-- The program's result: the first 10000 columns of the output array, which is `G` of the arguments. -/
theorem result_eq (c : Dev nD) :
    Pipeline.afterTail₀ cfgs (dats m) 0 (V0 m) [hostOps1] c main_v6
      = G (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v6) = _
  after_results
  rw [(Pipeline.withArrays_arr spec0 launch0.win.arr_inj c _ _ 4).trans (final_out m c)]
  funext i
  obtain ⟨r, j, rfl⟩ : ∃ (r : Fin 8192) (j : Fin 10000), i = ix2 r j := ⟨i 0, i 1, eq_ix2 i⟩
  refine (slice2_axis1_eq 0 (Gv m c) slices_S8192x10240_S8192x10000_0_0 r j).trans ?_
  unfold Gv
  rw [V_main_arg0, V_main_arg2]
  exact Gp_eq_G _ _ _ _ _ _ r j _ (arow_apply m c j _ (Nat.zero_add _)) (crow_apply m c j _ (Nat.zero_add _))

/-- The run, read: the result buffer ends at `G` of the arguments, the arguments unchanged. -/
theorem run : θ_run defs (onTc (τ := τ) (main (F := Ideal))) ⟨m, fun _ => 0, ρ⟩ fun r => ∀ c : Dev nD,
      r.2.mem ((c.tc : Thread nD τ).loc main_v6)
        = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).1 1).trans (((dats m 0 c).arrAt_in 1 rfl _).trans ((A_eq m c 1).trans (V_main_arg2 m c))),
       ((h c).2 main_arg3 (Pipeline.mem_restRefs_of main_arg3 (by decide) (by decide))).trans (W_main_arg3 m (dats m) c)⟩)
    (run_main m ρ)

end Cert.KernelIdeal.KValue

end
-- ==== Proof.lean ====
/-
  A rank-one affine layer with a positive part: from `x` (8192 × 2048), `A` (10000 × 1), `B` (1 × 2048) and `bias` (10000),

      out[r, j] = max ((∑ k, x[r,k] · B[0,k]) · A[j,0] + bias[j]) 0.

  The kernel tiles the 8192 rows into 64 bands of 128, forms each band's row sums by multiplying the tile by the row of `B`
  and summing the lanes, and combines them with `A` and `bias` laid out as rows zero-padded to 10240 columns; the last 240
  columns are cut off afterwards. The reference contracts `x` with the transposed `B`, and broadcasts `A` and `bias` along the
  rows. Over the extended reals a lane sum and a one-axis contraction are the same finite sum of the same products, taken in
  the same order of factors, so both programs compute the function `G` above index by index; no law that fails at the
  infinities is used, and the inputs' finiteness is not needed.

  The three frames are the programs' runs with the value dropped; the idealization rewrote nothing, so its conjunct is
  trivial; and the two idealized programs, run from memories that agree on the arguments, both end at `G` of them.
-/
import proofs.«165618_j36747740184729_1_alg».proof.Defs
import proofs.«165618_j36747740184729_1_alg».proof.Proof.Gen.Kernel
import proofs.«165618_j36747740184729_1_alg».proof.Proof.Gen.Kernel.Skeleton
import proofs.«165618_j36747740184729_1_alg».proof.Proof.Gen.Kernel.Launch
import proofs.«165618_j36747740184729_1_alg».proof.Proof.Gen.Kernel.Points
import proofs.«165618_j36747740184729_1_alg».proof.Proof.Gen.Kernel.Frame
import proofs.«165618_j36747740184729_1_alg».proof.Proof.Gen.KernelIdeal
import proofs.«165618_j36747740184729_1_alg».proof.Proof.Gen.KernelIdeal.Skeleton
import proofs.«165618_j36747740184729_1_alg».proof.Proof.Gen.KernelIdeal.Launch
import proofs.«165618_j36747740184729_1_alg».proof.Proof.Gen.KernelIdeal.Points
import proofs.«165618_j36747740184729_1_alg».proof.Proof.Gen.KernelIdeal.Frame
import proofs.«165618_j36747740184729_1_alg».proof.Proof.Gen.ReferenceIdeal
import proofs.«165618_j36747740184729_1_alg».proof.Proof.Gen.Pre_finite_inputs
import proofs.«165618_j36747740184729_1_alg».proof.Proof.Gen.ReferenceIdeal.Run
import proofs.«165618_j36747740184729_1_alg».proof.Proof.Gen.ReferenceIdeal.Read
import proofs.«165618_j36747740184729_1_alg».proof.Proof.RefValue
import proofs.«165618_j36747740184729_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at `G` of the arguments: the kernel by its bands and the cut, the reference stage by stage. -/
theorem algebraic : Cert.algebraic_KernelIdeal_ReferenceIdeal := by
  intro m ρ m' ρ' _ hagree
  refine ⟨fun c => Cert.Affine.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
